-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x4096 : Shape := ⟨2, ![512, 4096]⟩
abbrev S1x4096 : Shape := ⟨2, ![1, 4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S8192x512 .f32) (main_arg1 : FVec F S512x4096 .f32) (main_arg2 : FVec F S1x4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S8192x512 : Shape := ⟨2, ![8192, 512]⟩
abbrev S512x4096 : Shape := ⟨2, ![512, 4096]⟩
abbrev S1x4096 : Shape := ⟨2, ![1, 4096]⟩
abbrev S8192x4096 : Shape := ⟨2, ![8192, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S1x4096, .f32⟩
  | .hbm, ⟨3, _⟩ => ⟨S8192x512, .bf16⟩
  | .hbm, ⟨4, _⟩ => ⟨S512x4096, .bf16⟩
  | .hbm, ⟨5, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  reduces_S512x1024_S1024 : S512x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .bf16 = 32 ∨ (Rect.block (s := S512x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x4096 : Shape := ⟨2, ![512, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S1x4096, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S512x4096, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x4096_S4096_d0 : S512x4096.ReducesTo [0] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S1x4096 : S_.BroadcastsInDim S1x4096 (![] : Fin 0 → Fin S1x4096.rank)
  dot_S8192x512_S512x4096_S8192x4096_1_0_0_1_n_n_wf : DotDims.WF S8192x512 S512x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.Spec.lean ====
/-
  The Gaussian radial-basis layer as ONE function of its three argument arrays, over the extended reals.

  For a batch row `b` and a centre `c` the squared distance is expanded as
  `‖x_b‖² + ‖w_c‖² − 2·⟨x_b, w_c⟩`, and the layer's value is `exp (−d / (2·s_c·s_c))`.  The three sums run
  over the feature axis (512 coordinates); the constant `2` is kept as its float word, the same word in
  both programs, so it is never evaluated.  The order of the operations is the programs' own
  (`(x2 + w2) − 2·xw`, then the negation, then the quotient by `(2·s)·s`): no law of the extended reals
  that could fail at an infinity is used to state it.
-/
import Idealize.ShloMosaic.Lib.ValueIdx
import Idealize.ShloMosaic.PureOps.Ideal.Laws

noncomputable section

namespace Cert.Rbf

open Idealize.ShloMosaic Idealize.ShloMosaic.ValueIdx

/-- The float word of `2.0`, read as an extended real. -/
abbrev two : EReal := Ideal.ofBits .f32 0x40000000#32

/-- The layer's value from a row's squared norm `x2`, a centre's squared norm `w2`, their inner product
    `xw` and the centre's bandwidth `s`: `exp (−((x2 + w2) − 2·xw) / ((2·s)·s))`. -/
def gauss (x2 w2 xw s : EReal) : EReal :=
  Ideal.exp (Ideal.div (-((x2 + w2) - two * xw)) ((two * s) * s))

/-- The whole result: entry `(b, c)` from row `b` of `x`, column `c` of `w` and entry `c` of `s`. -/
def rbf (x : FVec Ideal ⟨2, ![8192, 512]⟩ .f32) (w : FVec Ideal ⟨2, ![512, 4096]⟩ .f32)
    (s : FVec Ideal ⟨2, ![1, 4096]⟩ .f32) : FVec Ideal ⟨2, ![8192, 4096]⟩ .f32 := fun i =>
  gauss (∑ k : Fin 512, x (ix2 (i 0) k) * x (ix2 (i 0) k))
    (∑ k : Fin 512, w (ix2 k (i 1)) * w (ix2 k (i 1)))
    (∑ k : Fin 512, x (ix2 (i 0) k) * w (ix2 k (i 1)))
    (s (ix2 (0 : Fin 1) (i 1)))

/-- Subtracting from the zero word is negation, on every extended real. -/
theorem zero_word_sub (d : EReal) : Ideal.ofBits .f32 0x00000000#32 - d = -d := by
  rw [Ideal.ofBits_zero_f32, zero_sub]

/-- Adding a sum to the zero word leaves the sum. -/
theorem zero_word_add (d : EReal) : Ideal.ofBits .f32 0x00000000#32 + d = d := by
  rw [Ideal.ofBits_zero_f32, zero_add]

end Cert.Rbf

end
-- ==== Proof.RefSpec.lean ====
/-
  The reference computes `Cert.Rbf.rbf`.

  Read one operation at a time, the reference's result at index `(b, c)` is
  `exp (neg ((Σ_k x[b,k]² + Σ_k w[k,c]²) − 2·Σ_k x[b,k]·w[k,c]) / ((2·s[0,c])·s[0,c]))`:
  the two keepdims sums are host reductions from the zero word (which adds nothing), the inner product is
  the host's contraction over the feature axis, and every broadcast reads its operand at the coordinates
  it keeps.  That is the specification, entry by entry.
-/
import proofs.«120326_j82300163326748_1_alg».proof.Proof.Gen.ReferenceIdeal.Read
import proofs.«120326_j82300163326748_1_alg».proof.Proof.Spec

noncomputable section

namespace Cert.ReferenceIdeal.RefSpec

open Cert.ReferenceIdeal Cert.ReferenceIdeal.Gen Cert.ReferenceIdeal.Read
open Idealize.ShloMosaic Idealize.ShloMosaic.ValueIdx

/-- Row `b` of `x` under the row-sum's chain of broadcasts. -/
theorem row_idx (i : S8192x4096.Idx) (k : Fin 512) :
    idx_main_v1 (idx_main_v2 (idx_main_v7 i)) k = ix2 (i 0) k :=
  funext fun a => Fin.ext (by match a with | ⟨0, _⟩ => rfl | ⟨1, _⟩ => rfl)

/-- Column `c` of `w` under the column-sum's chain of broadcasts. -/
theorem col_idx (i : S8192x4096.Idx) (k : Fin 512) :
    idx_main_v4 (idx_main_v5 (idx_main_v8 i)) k = ix2 k (i 1) :=
  funext fun a => Fin.ext (by match a with | ⟨0, _⟩ => rfl | ⟨1, _⟩ => rfl)

/-- The contraction's left factor sits in row `b`. -/
theorem dot_lhs_idx (i : S8192x4096.Idx) (k : Fin 512) : lidx_main_v6 i k = ix2 (i 0) k :=
  funext fun a => Fin.ext (by match a with | ⟨0, _⟩ => rfl | ⟨1, _⟩ => rfl)

/-- The contraction's right factor sits in column `c`. -/
theorem dot_rhs_idx (i : S8192x4096.Idx) (k : Fin 512) : ridx_main_v6 i k = ix2 k (i 1) :=
  funext fun a => Fin.ext (by match a with | ⟨0, _⟩ => rfl | ⟨1, _⟩ => rfl)

/-- The bandwidth row is read at column `c`. -/
theorem band_idx (i : S8192x4096.Idx) : idx_main_v17 i = ix2 (0 : Fin 1) (i 1) :=
  funext fun a => Fin.ext (by match a with | ⟨0, _⟩ => rfl | ⟨1, _⟩ => rfl)

/-- The reference's last stage is the specification of the three arguments. -/
theorem reference_is_rbf (x : (⟨S8192x512, .f32⟩ : BufTy).Contents (Elt Ideal)) (w : (⟨S512x4096, .f32⟩ : BufTy).Contents (Elt Ideal))
    (s : (⟨S1x4096, .f32⟩ : BufTy).Contents (Elt Ideal)) :
    val_main_v19 (F := Ideal) x w s = Cert.Rbf.rbf x w s := by
  funext i
  rw [val_main_v19_apply, val_main_v18_apply, val_main_v13_apply, val_main_v12_apply, val_main_v9_apply,
    val_main_v7_apply, val_main_v2_apply, val_main_v1_apply, val_main_v8_apply, val_main_v5_apply, val_main_v4_apply,
    val_main_v11_apply, val_main_v10_apply, val_main_v6_apply, val_main_v17_apply, val_main_v16_apply,
    val_main_v15_apply, val_main_v14_apply]
  simp only [val_main_v0_apply, val_main_v3_apply, val_main_cst_apply, val_main_cst_0_apply, val_main_cst_1_apply,
    val_main_cst_2_apply, row_idx, col_idx, dot_lhs_idx, dot_rhs_idx, band_idx,
    Ideal.hostUnary_exp_def, Ideal.hostDivf_def, Ideal.hostNegf_def, Ideal.negf_def, Ideal.subf_def, Ideal.addf_def,
    Ideal.mulf_def, Ideal.ofBits_def, Cert.Rbf.zero_word_add]
  rfl

end Cert.ReferenceIdeal.RefSpec

end
-- ==== Proof.LibKeepdims.lean ====
/-
  Keepdims reductions of a matrix read at an index given by coordinates.

  A sum over one axis of an `[a, b]` array that keeps the reduced axis as a unit axis is, in a kernel body, a
  lane reduction to a vector followed by a shape cast to a column `[a, 1]` or a row `[1, b]` and a broadcast
  back to `[a, b]`.  This file reads each of those steps at an index written `ix2 p q`:
  • the source index of a one-axis reduction of a matrix (`Shape.Reduces.lift`) along axis 1 and along axis 0;
  • a vector cast to a COLUMN, `[a] → [a, 1]`;
  • a column broadcast over many columns, `[a, 1] → [a, b]`.
  (The row forms `[a] → [1, a]` and `[1, b] → [a, b]` are the library's.)  It imports only the library.
-/
import Idealize.ShloMosaic.Lib.ValueLayout
import Idealize.ShloMosaic.PureOps.Ideal.Laws

namespace Cert.LibKeepdims

open Idealize.ShloMosaic Idealize.ShloMosaic.ValueIdx

variable {α : Type}

/-- Reducing an `[a, b]` matrix along axis 1: over result index `p`, coordinate `k` of the dropped axis sits at `(p, k)`. -/
theorem lift_axis1 {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- Reducing an `[a, b]` matrix along axis 0: over result index `q`, coordinate `k` of the dropped axis sits at `(k, q)`. -/
theorem lift_axis0 {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Pieces.lean ====
/-
  The pieces of the kernel body that are not pointwise, each read at an entry `(p, q)` of a 1024 × 1024 block.

  • The keepdims row sum: a lane reduction of a `[1024, 512]` block along the feature axis, cast to a column and
    broadcast over the block's columns, reads at `(p, q)` the sum over `k` of the source at `(p, k)`.
  • The keepdims column sum: a reduction of a `[512, 1024]` block along the feature axis, cast to a row and broadcast
    over the block's rows, reads at `(p, q)` the sum over `k` of the source at `(k, q)`.
  • The matrix product into a zero accumulator reads at `(p, q)` the inner product of row `p` and column `q`.
  • A `[1, 1024]` row broadcast over the block's rows reads at `(p, q)` its entry `q`.
-/
import proofs.«120326_j82300163326748_1_alg».proof.Proof.Gen.KernelIdeal
import proofs.«120326_j82300163326748_1_alg».proof.Proof.LibKeepdims
import Idealize.ShloMosaic.Lib.ValueIdx
import Idealize.ShloMosaic.Lib.ValueLayout
import Idealize.ShloMosaic.PureOps.Ideal.Laws

noncomputable section

namespace Cert.KernelIdeal.Pieces

open Cert.KernelIdeal Cert.KernelIdeal.Gen Cert.LibKeepdims
open Idealize.ShloMosaic Idealize.ShloMosaic.ValueIdx

/-- The row sum, kept as a column and spread over the block: at `(p, q)` it is `Σ_k src[p, k]`. -/
theorem row_sum_spread (src : FVec Ideal S1024x512 .f32) (hacc : (0x00000000#32 : BitVec 32) = 0x00000000#32) (p q : Fin 1024) :
    broadcastTo S1024x1024 (shapeCast S1024x1 (multiReduction .add [1] S1024 src 0x00000000#32 reduces_S1024x512_S1024 (.inl rfl) hacc)
      shapeCasts_S1024_S1024x1) broadcasts_S1024x1_S1024x1024 (ix2 p q) = ∑ k : Fin 512, src (ix2 p k) := by
  refine (broadcastTo_a1_ab_apply _ broadcasts_S1024x1_S1024x1024 p q).trans ?_
  refine (shapeCast_a_a1_apply _ shapeCasts_S1024_S1024x1 p (0 : Fin 1)).trans ?_
  refine (Ideal.multiReduction_add_single src 0x00000000#32 reduces_S1024x512_S1024 (.inl rfl) hacc (ix1 p)).trans ?_
  exact Finset.sum_congr rfl fun k _ => congrArg src (lift_axis1 reduces_S1024x512_S1024 p k)

/-- The column sum, kept as a row and spread over the block: at `(p, q)` it is `Σ_k src[k, q]`. -/
theorem col_sum_spread (src : FVec Ideal S512x1024 .f32) (hacc : (0x00000000#32 : BitVec 32) = 0x00000000#32) (p q : Fin 1024) :
    broadcastTo S1024x1024 (shapeCast S1x1024 (multiReduction .add [0] S1024 src 0x00000000#32 reduces_S512x1024_S1024 (.inl rfl) hacc)
      shapeCasts_S1024_S1x1024) broadcasts_S1x1024_S1024x1024 (ix2 p q) = ∑ k : Fin 512, src (ix2 k q) := by
  refine (broadcastTo_1b_ab_apply _ broadcasts_S1x1024_S1024x1024 p q).trans ?_
  refine (shapeCast_a_1a_apply _ shapeCasts_S1024_S1x1024 (0 : Fin 1) q).trans ?_
  refine (Ideal.multiReduction_add_single src 0x00000000#32 reduces_S512x1024_S1024 (.inl rfl) hacc (ix1 q)).trans ?_
  exact Finset.sum_congr rfl fun k _ => congrArg src (lift_axis0 reduces_S512x1024_S1024 q k)

/-- A row spread over the block's rows reads its entry of the column. -/
theorem row_spread (v : FVec Ideal S1x1024 .f32) (p q : Fin 1024) :
    broadcastTo S1024x1024 v broadcasts_S1x1024_S1024x1024 (ix2 p q) = v (ix2 (0 : Fin 1) q) :=
  broadcastTo_1b_ab_apply v broadcasts_S1x1024_S1024x1024 p q

/-! ## The block's matrix product -/

theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into the zero accumulator: at `(p, q)` the inner product `Σ_k xb[p, k] · wb[k, q]`. -/
theorem block_product (xb : FVec Ideal S1024x512 .bf16) (wb : FVec Ideal S512x1024 .bf16) (p q : Fin 1024) :
    matmul dot_S1024x512_S512x1024_S1024x1024_1_0_0_1_n_n none xb wb (constant S1024x1024 .f32 0x00000000#32) (ix2 p q)
      = ∑ k : Fin 512, xb (ix2 p k) * wb (ix2 k q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

end Cert.KernelIdeal.Pieces

end
-- ==== Proof.Payload.lean ====
/-
  The kernel body's one stored value, read at an entry `(p, q)` of its 1024 × 1024 block.

  From the three blocks it loads — `xb` (1024 rows of `x`), `wb` (1024 columns of `w`), `sb` (1024 bandwidths) —
  the body computes `exp ((0 − ((x2 + w2) − 2·xw)) / ((2·s)·s))` with `x2` the row's squared norm, `w2` the
  column's, `xw` their inner product: the squares are taken on the loaded values and only then widened, which over
  the extended reals changes nothing, and `0 − d` is `−d`.  So the entry is the specification's `gauss` of the
  block's own sums.
-/
import proofs.«120326_j82300163326748_1_alg».proof.Proof.Gen.KernelIdeal.Skeleton
import proofs.«120326_j82300163326748_1_alg».proof.Proof.Pieces
import proofs.«120326_j82300163326748_1_alg».proof.Proof.Spec

noncomputable section

namespace Cert.KernelIdeal.Payload

open Cert.KernelIdeal Cert.KernelIdeal.Gen Cert.KernelIdeal.Pieces
open Idealize.ShloMosaic Idealize.ShloMosaic.ValueIdx

/-- The stored block at `(p, q)` is `gauss` of row `p` of `xb`, column `q` of `wb` and entry `q` of `sb`. -/
theorem pay_apply (xb : FVec Ideal S1024x512 .bf16) (wb : FVec Ideal S512x1024 .bf16) (sb : FVec Ideal S1x1024 .f32) (p q : Fin 1024) :
    k0_pay1 (F := Ideal) xb wb sb (ix2 p q)
      = Cert.Rbf.gauss (∑ k : Fin 512, xb (ix2 p k) * xb (ix2 p k)) (∑ k : Fin 512, wb (ix2 k q) * wb (ix2 k q))
          (∑ k : Fin 512, xb (ix2 p k) * wb (ix2 k q)) (sb (ix2 (0 : Fin 1) q)) := by
  unfold k0_pay1 Cert.Rbf.gauss
  simp only [shapeCast_self]
  show Ideal.exp (divf (F := Ideal) (s := S1024x1024) (φ := .f32) _ _ (ix2 p q)) = _
  rw [divf_apply, subf_apply, subf_apply, addf_apply, mulf_apply, broadcast_apply, broadcast_apply,
    row_sum_spread, col_sum_spread, block_product, row_spread]
  rw [Ideal.ofBits_def, Cert.Rbf.zero_word_sub]
  rfl

/-- A block entry against the whole arrays: if row `p` of `xb` is row `b` of `x`, column `q` of `wb` is column `c` of `w`,
    and entry `q` of `sb` is entry `c` of `s`, then the stored block at `(p, q)` is the specification at `(b, c)`. -/
theorem block_entry (x : FVec Ideal S8192x512 .f32) (w : FVec Ideal S512x4096 .f32) (s : FVec Ideal S1x4096 .f32)
    (xb : FVec Ideal S1024x512 .bf16) (wb : FVec Ideal S512x1024 .bf16) (sb : FVec Ideal S1x1024 .f32)
    (p q : Fin 1024) (i : S8192x4096.Idx)
    (hx : ∀ k : Fin 512, xb (ix2 p k) = x (ix2 (i 0) k))
    (hw : ∀ k : Fin 512, wb (ix2 k q) = w (ix2 k (i 1)))
    (hs : sb (ix2 (0 : Fin 1) q) = s (ix2 (0 : Fin 1) (i 1))) :
    k0_pay1 (F := Ideal) xb wb sb (ix2 p q) = Cert.Rbf.rbf x w s i := by
  refine (pay_apply xb wb sb p q).trans ?_
  unfold Cert.Rbf.rbf
  simp only [hx, hw, hs]

/-- The same at any index `j` of the block, its coordinates taken apart here. -/
theorem block_entry_at (x : FVec Ideal S8192x512 .f32) (w : FVec Ideal S512x4096 .f32) (s : FVec Ideal S1x4096 .f32)
    (xb : FVec Ideal S1024x512 .bf16) (wb : FVec Ideal S512x1024 .bf16) (sb : FVec Ideal S1x1024 .f32)
    (j : S1024x1024.Idx) (i : S8192x4096.Idx)
    (hx : ∀ k : Fin 512, xb (ix2 (j 0) k) = x (ix2 (i 0) k))
    (hw : ∀ k : Fin 512, wb (ix2 k (j 1)) = w (ix2 k (i 1)))
    (hs : sb (ix2 (0 : Fin 1) (j 1)) = s (ix2 (0 : Fin 1) (i 1))) :
    k0_pay1 (F := Ideal) xb wb sb j = Cert.Rbf.rbf x w s i := by
  obtain ⟨p, q, rfl⟩ : ∃ (p q : Fin 1024), j = ix2 p q := ⟨j 0, j 1, eq_ix2 j⟩
  exact block_entry x w s xb wb sb p q i hx hw hs

end Cert.KernelIdeal.Payload

end
-- ==== Proof.Blocks.lean ====
/-
  From blocks to the array: after the kernel's run the output array holds the specification.

  The grid has 8 × 4 points; point `(i, j)` loads rows `1024·i …` of `x` (all 512 features), columns `1024·j …` of
  `w` and of `s`, and writes back block `(i, j)` of the output.  The arrays the first two windows stage are the
  arguments narrowed to a shorter float format on the host, which over the extended reals is the identity.  So what
  a point writes back is its block of `Cert.Rbf.rbf` of the arguments (row `p` of the `x` block is row
  `1024·i + p` of `x`, and so on), the 32 blocks cover the output, and the array ends holding `rbf` whole.
-/
import proofs.«120326_j82300163326748_1_alg».proof.Proof.Gen.KernelIdeal.Value
import proofs.«120326_j82300163326748_1_alg».proof.Proof.Payload
import Idealize.ShloMosaic.Lib.Pipeline.Value
import Idealize.ShloMosaic.Lib.StableHlo.Run

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The array window 0 stages is `x`: narrowing the float format changes no extended real. -/
theorem staged_x (c : Dev nD) : (V m c main_v0 : S8192x512.Idx → EReal) = m ((c : Thread nD τ).loc main_arg0) := by
  dsimp only [Gen.V, Gen.hostOps0]; after_results; rfl

/-- The array window 1 stages is `w`. -/
theorem staged_w (c : Dev nD) : (V m c main_v1 : S512x4096.Idx → EReal) = m ((c : Thread nD τ).loc main_arg1) := by
  dsimp only [Gen.V, Gen.hostOps0]; after_results; rfl

/-- What the output array is to hold: the specification of the three arguments as launched. -/
abbrev result (c : Dev nD) : Buf (Elt Ideal) ((c : Thread nD τ).loc main_v2) :=
  Cert.Rbf.rbf (m ((c : Thread nD τ).loc main_arg0)) (m ((c : Thread nD τ).loc main_arg1)) (m ((c : Thread nD τ).loc main_arg2))

/-- The printed index maps over the 32 points: the `x` window follows the output's block row and stays at feature
    block 0; the `w` and `s` windows follow the output's block column. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2) :=
  (by decide +kernel : ∀ t : Fin grid0.N, _)

/-- Every block of the 8 × 4 tiling is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- What point `t` writes back is block `t` of the specification. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S1024x512) origin, View.ld_unit_zero (S := S512x1024) origin, View.ld_unit_zero (S := S1x1024) origin]
  obtain ⟨e0, e1, e2, e3, e4, e5⟩ := idx_facts t
  funext j
  show k0_pay1 (F := Ideal) (iblk m c 0 t) (iblk m c 1 t) (iblk m c 2 t) j = result m c (((cfg0.win 3).blk t).view.emb j)
  refine Payload.block_entry_at _ _ _ (iblk m c 0 t) (iblk m c 1 t) (iblk m c 2 t) j _ ?_ ?_ ?_
  · intro k
    show V m c main_v0 (((cfg0.win 0).blk t).view.emb (ix2 (j 0) k)) = _
    rw [staged_x]
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 512 + 1 * k.val = k.val; omega
  · intro k
    show V m c main_v1 (((cfg0.win 1).blk t).view.emb (ix2 k (j 1))) = _
    rw [staged_w]
    refine congrArg _ (funext fun a => Fin.ext ?_)
    match a with
    | ⟨0, _⟩ => show win0_1.index t (0 : Fin 2) * 512 + 1 * k.val = k.val; omega
    | ⟨1, _⟩ => show win0_1.index t (1 : Fin 2) * 1024 + 1 * (j 1).val = win0_3.index t (1 : Fin 2) * 1024 + 1 * (j 1).val; omega
  · show V m c main_arg2 (((cfg0.win 2).blk t).view.emb (ix2 (0 : Fin 1) (j 1))) = _
    rw [V_main_arg2]
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the output is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every index of the output lies in the block of the point at block row `b / 1024`, block column `c / 1024`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run is the specification. -/
theorem final (c : Dev nD) : (dats m 0 c).arrAt 3 cfg0.N = result m c :=
  (dats m 0 c).arrAt_eq_of_cover 3 (result m c) (fun t _ => flushed_eq m c t) cover

/-- The kernel's run, with its result named: the output holds the specification, the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Blocks

end
-- ==== Proof.lean ====
/-
  A Gaussian radial-basis layer, tiled, against its plain definition.

  For inputs `x` [8192, 512], centres `w` [512, 4096] and bandwidths `s` [1, 4096] both programs compute, at entry
  `(b, c)`, `exp (−d / (2·s_c·s_c))` with the squared distance expanded as `d = ‖x_b‖² + ‖w_c‖² − 2·⟨x_b, w_c⟩`.
  The kernel does it block by block over an 8 × 4 grid of 1024 × 1024 output blocks, each point holding 1024 whole
  rows of `x` and 1024 whole columns of `w`, after narrowing `x` and `w` to a shorter float format; the reference
  does it on the whole arrays.  Over the extended reals the narrowing and the widening back are the identity, a block's
  row and column sums are the whole array's (the feature axis is never cut), the matrix product into a zero
  accumulator is the contraction, and `0 − d` is `−d`; the operations are otherwise the same in the same order, so no
  law that could fail at an infinity is needed and the finiteness of the inputs is never used.

  `Cert.Rbf.rbf` (Proof/Spec.lean) is that function of the three arrays.  Proof/RefSpec.lean reads the reference's
  operations one at a time and finds `rbf`; Proof/Pieces.lean and Proof/Payload.lean read the kernel body's stored
  value at an entry of its block; Proof/Blocks.lean shows that each grid point writes back its block of `rbf` and
  that the blocks cover the output.  Below, the three programs run and keep their arguments, the idealization
  rewrote nothing, and the two idealized programs end at the same array.
-/
import proofs.«120326_j82300163326748_1_alg».proof.Defs
import proofs.«120326_j82300163326748_1_alg».proof.Proof.Gen.Kernel
import proofs.«120326_j82300163326748_1_alg».proof.Proof.Gen.Kernel.Skeleton
import proofs.«120326_j82300163326748_1_alg».proof.Proof.Gen.Kernel.Launch
import proofs.«120326_j82300163326748_1_alg».proof.Proof.Gen.Kernel.Points
import proofs.«120326_j82300163326748_1_alg».proof.Proof.Gen.Kernel.Frame
import proofs.«120326_j82300163326748_1_alg».proof.Proof.Gen.KernelIdeal
import proofs.«120326_j82300163326748_1_alg».proof.Proof.Gen.KernelIdeal.Skeleton
import proofs.«120326_j82300163326748_1_alg».proof.Proof.Gen.KernelIdeal.Launch
import proofs.«120326_j82300163326748_1_alg».proof.Proof.Gen.KernelIdeal.Points
import proofs.«120326_j82300163326748_1_alg».proof.Proof.Gen.KernelIdeal.Frame
import proofs.«120326_j82300163326748_1_alg».proof.Proof.Gen.ReferenceIdeal
import proofs.«120326_j82300163326748_1_alg».proof.Proof.Gen.Pre_finite_inputs
import proofs.«120326_j82300163326748_1_alg».proof.Proof.Gen.KernelIdeal.Value
import proofs.«120326_j82300163326748_1_alg».proof.Proof.Gen.ReferenceIdeal.Run
import proofs.«120326_j82300163326748_1_alg».proof.Proof.Gen.ReferenceIdeal.Read
import proofs.«120326_j82300163326748_1_alg».proof.Proof.RefSpec
import proofs.«120326_j82300163326748_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, `w` and `s`, the kernel's output array and the reference's result both end
    at `Cert.Rbf.rbf` of those three arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefSpec.reference_is_rbf,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
